-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S2x4096 : Shape := ⟨2, ![2, 4096]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel

variable [Facts]

def fn {F : FTy → Type} [FloatOps F] (main_arg0 : FVec F S2x4096x1024 .f32) (main_arg1 : IVec S2x4096 32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  main_v3
-- ==== Kernel.lean ====
abbrev S2x4096x1024 : Shape := ⟨3, ![2, 4096, 1024]⟩
abbrev S2x4096 : Shape := ⟨2, ![2, 4096]⟩
abbrev S2x4096x4096 : Shape := ⟨3, ![2, 4096, 4096]⟩
abbrev S1x512x1024 : Shape := ⟨3, ![1, 512, 1024]⟩
abbrev S1x512x4096 : Shape := ⟨3, ![1, 512, 4096]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x4096, .i32⟩
  | .hbm, ⟨2, _⟩ => ⟨S2x4096x1024, .f32⟩
  | .hbm, ⟨3, _⟩ => ⟨S2x4096x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x4096, .f32⟩
  | .local _ .vmem, ⟨5, _⟩ => ⟨S1x512x4096, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  inb_S1x512x4096_S1x512x4096_0_0_0 : ∀ a, (![0, 0, 0] : Fin 3 → Nat) a + S1x512x4096.size a ≤ S1x512x4096.size a
  h_S1x512x4096 : 0 < S1x512x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x4096x1024.size a
  hwx0_0 : ∀ i : grid0.Coords, EltTy.bits .f32 = 32 ∨ (Rect.block (s := S2x4096x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S2x4096x1024.size a
  hwx0_1 : ∀ i : grid0.Coords, EltTy.bits .f32 = 32 ∨ (Rect.block (s := S2x4096x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S2x4096x4096.size a
  hwx0_2 : ∀ i : grid0.Coords, EltTy.bits .f32 = 32 ∨ (Rect.block (s := S2x4096x4096) S1x512x4096.size (cc0_transform_2 i) (hinb0_2 i)).WholeWords (EltTy.packing .f32)

variable [Facts₀]

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x512x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x4096x1024 : Shape := ⟨3, ![2, 4096, 1024]⟩
abbrev S2x4096 : Shape := ⟨2, ![2, 4096]⟩
abbrev S_ : Shape := ⟨0, ![]⟩
abbrev S2x4096x4096 : Shape := ⟨3, ![2, 4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096, .i32⟩
  | .hbm, ⟨2, _⟩ => ⟨S_, .f32⟩
  | .hbm, ⟨3, _⟩ => ⟨S2x4096x4096, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  bcast_S_S2x4096x4096 : S_.BroadcastsInDim S2x4096x4096 (![] : Fin 0 → Fin S2x4096x4096.rank)

variable [Facts₀]

class Facts : Prop extends Facts₀ where

variable [Facts]
-- ==== Proof.KernelArrays.lean ====
/-
  What the two result arrays of the idealized kernel hold after its run, as whole arrays.

  The call runs over a 2 × 8 grid. At grid point (b, s) the body reads rows 512·s … 512·s + 511 of batch b of the
  input, a block of shape [1, 512, 1024], and stores that block unchanged into the first result's block at the same
  place; into the second result's block [1, 512, 4096] at (b, s) it stores the float whose word is zero at every
  entry. The sixteen blocks of each result tile its array: an entry (b, r, x) lies in the block of the point
  (b, r / 512). So the first result ends as the input array, entry by entry, and the second ends as the constant
  zero array. Nothing here depends on what a float is: the statements hold at every instance.
-/
import proofs.«169646_j44315472560501_1_alg».proof.Proof.Gen.KernelIdeal.Value
import Idealize.ShloMosaic.Lib.Pipeline.Value

set_option maxRecDepth 16384

noncomputable section

namespace Cert.KernelIdeal.Arrays

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Every load and store of the body starts at the origin of its buffer and spans it. -/
theorem origin : (![0, 0, 0] : Fin 3 → Nat) = fun _ => 0 := funext fun a => by fin_cases a <;> rfl

/-- The zero array of the second result's shape: the float with the zero word at every entry. -/
abbrev zeros : S2x4096x4096.Idx → Elt F .f32 := broadcast S2x4096x4096 (Scalar.ofBits (F := F) .f32 0x00000000#32)

/-! ## The first result: the input, copied block by block -/

/-- At every grid point the input's block and the first result's block sit at the same block index. -/
theorem same_place : ∀ t : Fin cfg0.N, win0_0.index t (0 : Fin 3) = win0_1.index t (0 : Fin 3)
    ∧ win0_0.index t (1 : Fin 3) = win0_1.index t (1 : Fin 3)
    ∧ win0_0.index t (2 : Fin 3) = win0_1.index t (2 : Fin 3) :=
  (by decide +kernel : ∀ t : Fin grid0.N, _)

/-- Every pair (batch, row block) is the block index of some grid point of the first result. -/
theorem copy_onto : ∀ (b : Fin 2) (s : Fin 8), ∃ t : Fin cfg0.N, win0_1.index t = ![b.val, s.val, 0] :=
  (by decide +kernel : ∀ (b : Fin 2) (s : Fin 8), ∃ t : Fin grid0.N, win0_1.index t = ![b.val, s.val, 0])

/-- What point `t` writes back to the first result is the input array read through that result's own block at `t`:
    the body stores what it loaded, and the two blocks sit at the same place. -/
theorem copy_block (c : Dev nD) (t : Fin cfg0.N) :
    (dats m 0 c).flushed 1 t
      = ((cfg0.win 1).blk t).view.read (Elt F) (V m c main_arg0 : S2x4096x1024.Idx → Elt F .f32) := by
  rw [flushed1]
  unfold out0_1
  rw [View.canon_unit_zero origin]
  simp only [View.ld_unit_zero (S := S1x512x1024) origin]
  obtain ⟨e0, e1, e2⟩ := same_place t
  funext j
  show V m c main_arg0 (((cfg0.win 0).blk t).view.emb j) = V m c main_arg0 (((cfg0.win 1).blk t).view.emb j)
  have h : ((cfg0.win 0).blk t).view.emb j = ((cfg0.win 1).blk t).view.emb j := by
    funext a; apply Fin.ext
    match a with
    | ⟨0, _⟩ => show win0_0.index t (0 : Fin 3) * 1 + 1 * (j 0).val = win0_1.index t (0 : Fin 3) * 1 + 1 * (j 0).val; omega
    | ⟨1, _⟩ => show win0_0.index t (1 : Fin 3) * 512 + 1 * (j 1).val = win0_1.index t (1 : Fin 3) * 512 + 1 * (j 1).val; omega
    | ⟨2, _⟩ => show win0_0.index t (2 : Fin 3) * 1024 + 1 * (j 2).val = win0_1.index t (2 : Fin 3) * 1024 + 1 * (j 2).val; omega
  rw [h]

/-- An entry of the first result lies in point `t`'s block iff, axis by axis, it lies in the block's range. -/
theorem mem_copy_block (t : Fin cfg0.N) (i : S2x4096x1024.Idx) :
    i ∈ ((cfg0.win 1).blk t).view.set ↔ ∀ a : Fin 3, win0_1.index t a * S1x512x1024.size a ≤ (i a).val
      ∧ (i a).val < win0_1.index t a * S1x512x1024.size a + S1x512x1024.size a := by
  show i ∈ ((View.whole main_v0_0).slice (win0_1.rect t)).set ↔ _
  rw [View.set_slice_whole, Rect.mem_set_unit]
  exact Iff.rfl

/-- The sixteen blocks tile the first result: the entry (b, r, x) lies in the block of the point at (b, r / 512). -/
theorem copy_cover (i : S2x4096x1024.Idx) :
    ∃ t : Fin cfg0.N, (cfg0.win 1).flush t = true ∧ i ∈ ((cfg0.win 1).blk t).view.set := by
  have hi0 : (i 0).val < 2 := (i 0).isLt
  have hi1 : (i 1).val < 4096 := (i 1).isLt
  have hi2 : (i 2).val < 1024 := (i 2).isLt
  obtain ⟨t, ht⟩ := copy_onto ⟨(i 0).val, hi0⟩ ⟨(i 1).val / 512, by omega⟩
  have q0 : win0_1.index t (0 : Fin 3) = (i 0).val := congrFun ht 0
  have q1 : win0_1.index t (1 : Fin 3) = (i 1).val / 512 := congrFun ht 1
  have q2 : win0_1.index t (2 : Fin 3) = 0 := congrFun ht 2
  refine ⟨t, flush0_1 t, ?_⟩
  rw [mem_copy_block]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 512 ≤ (i 1).val ∧ (i 1).val < win0_1.index t (1 : Fin 3) * 512 + 512; omega
  | ⟨2, _⟩ => show win0_1.index t (2 : Fin 3) * 1024 ≤ (i 2).val ∧ (i 2).val < win0_1.index t (2 : Fin 3) * 1024 + 1024; omega

/-- After the run the first result is the input array as launched. -/
theorem copied (c : Dev nD) :
    (dats m 0 c).arrAt 1 cfg0.N = (m ((c : Thread nD τ).loc main_arg0) : S2x4096x1024.Idx → Elt F .f32) :=
  (dats m 0 c).arrAt_eq_of_cover 1 _ (fun t _ => copy_block m c t) copy_cover

/-! ## The second result: zero everywhere -/

/-- Every pair (batch, row block) is the block index of some grid point of the second result. -/
theorem zero_onto : ∀ (b : Fin 2) (s : Fin 8), ∃ t : Fin cfg0.N, win0_2.index t = ![b.val, s.val, 0] :=
  (by decide +kernel : ∀ (b : Fin 2) (s : Fin 8), ∃ t : Fin grid0.N, win0_2.index t = ![b.val, s.val, 0])

/-- What point `t` writes back to the second result is the zero array read through the block at `t`: the body's one
    store there is the zero float splat over the whole block. -/
theorem zero_block (c : Dev nD) (t : Fin cfg0.N) :
    (dats m 0 c).flushed 2 t = ((cfg0.win 2).blk t).view.read (Elt F) (zeros (F := F)) := by
  rw [flushed2]
  unfold out0_2
  rw [View.canon_unit_zero origin]
  rfl

/-- An entry of the second result lies in point `t`'s block iff, axis by axis, it lies in the block's range. -/
theorem mem_zero_block (t : Fin cfg0.N) (i : S2x4096x4096.Idx) :
    i ∈ ((cfg0.win 2).blk t).view.set ↔ ∀ a : Fin 3, win0_2.index t a * S1x512x4096.size a ≤ (i a).val
      ∧ (i a).val < win0_2.index t a * S1x512x4096.size a + S1x512x4096.size a := by
  show i ∈ ((View.whole main_v0_1).slice (win0_2.rect t)).set ↔ _
  rw [View.set_slice_whole, Rect.mem_set_unit]
  exact Iff.rfl

/-- The sixteen blocks tile the second result: the entry (b, r, x) lies in the block of the point at (b, r / 512). -/
theorem zero_cover (i : S2x4096x4096.Idx) :
    ∃ t : Fin cfg0.N, (cfg0.win 2).flush t = true ∧ i ∈ ((cfg0.win 2).blk t).view.set := by
  have hi0 : (i 0).val < 2 := (i 0).isLt
  have hi1 : (i 1).val < 4096 := (i 1).isLt
  have hi2 : (i 2).val < 4096 := (i 2).isLt
  obtain ⟨t, ht⟩ := zero_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_zero_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 4096 ≤ (i 2).val ∧ (i 2).val < win0_2.index t (2 : Fin 3) * 4096 + 4096; omega

/-- After the run the second result is the zero array. -/
theorem zeroed (c : Dev nD) : (dats m 0 c).arrAt 2 cfg0.N = zeros (F := F) :=
  (dats m 0 c).arrAt_eq_of_cover 2 _ (fun t _ => zero_block m c t) zero_cover

/-! ## The run, with both results read -/

/-- Every weakly fair execution of the kernel's program ends with the first result equal to the input array, the
    second equal to the zero array, and both arguments as launched. -/
theorem run : θ_run defs (onTc (τ := τ) (main (F := F))) ⟨m, fun _ => 0, ρ⟩ fun r => ∀ c : Dev nD,
      r.2.mem ((c : Thread nD τ).loc main_v0_0) = (m ((c : Thread nD τ).loc main_arg0) : S2x4096x1024.Idx → Elt F .f32)
      ∧ r.2.mem ((c : Thread nD τ).loc main_v0_1) = zeros (F := F)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (copied m c), (h c).2.1.trans (zeroed m c), (h c).2.2.1, (h c).2.2.2⟩)
    (run_blocks m ρ)

end Cert.KernelIdeal.Arrays

end
-- ==== Proof.ReferenceArrays.lean ====
/-
  What the reference's second result holds, in the kernel's spelling.

  The reference returns its first argument untouched and, as its second result, the scalar constant with the zero
  word broadcast to shape [2, 4096, 4096]. A broadcast of a constant scalar reads that one scalar at every entry, so
  the array is the zero float at every entry: the same array a splat of the zero float over that shape gives. The
  two floats are the same word read by the same instance, so no arithmetic on floats is used and the equation holds
  at every instance.
-/
import proofs.«169646_j44315472560501_1_alg».proof.Proof.Gen.ReferenceIdeal.Run
import Idealize.ShloMosaic.Lib.KernelVsHost

noncomputable section

namespace Cert.ReferenceIdeal.Arrays

open Cert.ReferenceIdeal Cert.ReferenceIdeal.Gen Idealize.ShloMosaic Idealize.ShloMosaic.TcCoe Idealize.SL.Sem

variable {F : FTy → Type} [FloatOps F]

/-- The constant zero scalar broadcast over [2, 4096, 4096] is the splat of the zero float over that shape. -/
theorem zeros_eq :
    broadcastInDim S2x4096x4096 ![] bcast_S_S2x4096x4096 (constant (F := F) S_ .f32 0x00000000#32)
      = broadcast S2x4096x4096 (Scalar.ofBits (F := F) .f32 0x00000000#32) :=
  broadcastInDim_constant _ _ _

end Cert.ReferenceIdeal.Arrays

end
-- ==== Proof.lean ====
/-
  The kernel and its reference are the same pair of arrays.

  The kernel copies its float input [2, 4096, 1024] block by block into its first result and fills its second result
  [2, 4096, 4096] with the float whose word is zero; its integer argument is never read. The reference returns the
  input itself as its first result and a broadcast of the zero constant as its second. At the extended reals, as at
  any reading of floats, the first results are both the input array (the two programs start from memories agreeing
  on it) and the second results are both the zero float at every entry: the same word on both sides, never
  evaluated. No law of arithmetic is used, so the finiteness of the input is never opened.

  The kernel's two result arrays as whole arrays are read in Proof/KernelArrays.lean (the blocks of the 2 × 8 grid
  tile each result); the reference's broadcast in the kernel's spelling is in Proof/ReferenceArrays.lean. The three
  frames are the generated ones: the kernel's frame at the word level and at the ideal level, and the reference's
  run with its results dropped. The idealization rewrote no operation, so the preservation claim is `True`.
-/
import proofs.«169646_j44315472560501_1_alg».proof.Defs
import proofs.«169646_j44315472560501_1_alg».proof.Proof.Gen.Kernel
import proofs.«169646_j44315472560501_1_alg».proof.Proof.Gen.Kernel.Skeleton
import proofs.«169646_j44315472560501_1_alg».proof.Proof.Gen.Kernel.Launch
import proofs.«169646_j44315472560501_1_alg».proof.Proof.Gen.Kernel.Points
import proofs.«169646_j44315472560501_1_alg».proof.Proof.Gen.Kernel.Frame
import proofs.«169646_j44315472560501_1_alg».proof.Proof.Gen.KernelIdeal
import proofs.«169646_j44315472560501_1_alg».proof.Proof.Gen.KernelIdeal.Skeleton
import proofs.«169646_j44315472560501_1_alg».proof.Proof.Gen.KernelIdeal.Launch
import proofs.«169646_j44315472560501_1_alg».proof.Proof.Gen.KernelIdeal.Points
import proofs.«169646_j44315472560501_1_alg».proof.Proof.Gen.KernelIdeal.Frame
import proofs.«169646_j44315472560501_1_alg».proof.Proof.Gen.ReferenceIdeal
import proofs.«169646_j44315472560501_1_alg».proof.Proof.Gen.Pre_finite_inputs
import proofs.«169646_j44315472560501_1_alg».proof.Proof.KernelArrays
import proofs.«169646_j44315472560501_1_alg».proof.Proof.ReferenceArrays
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is two host operations; its run keeps both arguments. -/
theorem frame_referenceIdeal : Cert.frame_ReferenceIdeal := fun m ρ _ =>
  (θ_run Cert.ReferenceIdeal.defs _ _).mono (fun _ h c => ⟨(h c).1, (h c).2.2.2⟩)
    (Cert.ReferenceIdeal.Value.run (F := Ideal) m ρ)

/-- Both programs end with the input array as first result and the zero array as second. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun _ => Cert.KernelIdeal.Arrays.zeros (F := Ideal),
    Cert.KernelIdeal.Arrays.run (F := Ideal) m ρ, ?_⟩
  exact (θ_run Cert.ReferenceIdeal.defs _ _).mono
    (fun _ h c => ⟨(h c).1.trans (hagree c).1, (h c).2.1.trans Cert.ReferenceIdeal.Arrays.zeros_eq, (h c).2.2.1, (h c).2.2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
